-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x800000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x800000 : Shape := ⟨2, ![2, 800000]⟩
abbrev S100000 : Shape := ⟨1, ![100000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S10000x64 : Shape := ⟨2, ![10000, 64]⟩
abbrev S900000x64 : Shape := ⟨2, ![900000, 64]⟩
abbrev S1x64 : Shape := ⟨2, ![1, 64]⟩

abbrev nBuf : Space → Nat
  | .hbm => 106
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S100000, .i32⟩
  | .hbm, ⟨12, _⟩ => ⟨S1x800000, .i32⟩
  | .hbm, ⟨13, _⟩ => ⟨S800000, .i32⟩
  | .hbm, ⟨14, _⟩ => ⟨S900000, .i32⟩
  | .hbm, ⟨15, _⟩ => ⟨S1x800000, .i32⟩
  | .hbm, ⟨16, _⟩ => ⟨S800000, .i32⟩
  | .hbm, ⟨17, _⟩ => ⟨S900000, .i32⟩
  | .hbm, ⟨18, _⟩ => ⟨S_, .f32⟩
  | .hbm, ⟨19, _⟩ => ⟨S900000, .f32⟩
  | .hbm, ⟨20, _⟩ => ⟨S_, .f32⟩
  | .hbm, ⟨21, _⟩ => ⟨S100000, .f32⟩
  | .hbm, ⟨22, _⟩ => ⟨S900000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S900000, .i32⟩
  | .hbm, ⟨34, _⟩ => ⟨S900000, .i1⟩
  | .hbm, ⟨35, _⟩ => ⟨S_, .i32⟩
  | .hbm, ⟨36, _⟩ => ⟨S900000, .i32⟩
  | .hbm, ⟨37, _⟩ => ⟨S900000, .i32⟩
  | .hbm, ⟨38, _⟩ => ⟨S900000, .i32⟩
  | .hbm, ⟨39, _⟩ => ⟨S900000x1, .i32⟩
  | .hbm, ⟨40, _⟩ => ⟨S900000, .f32⟩
  | .hbm, ⟨41, _⟩ => ⟨S_, .i32⟩
  | .hbm, ⟨42, _⟩ => ⟨S900000, .i32⟩
  | .hbm, ⟨43, _⟩ => ⟨S900000, .i1⟩
  | .hbm, ⟨44, _⟩ => ⟨S_, .i32⟩
  | .hbm, ⟨45, _⟩ => ⟨S900000, .i32⟩
  | .hbm, ⟨46, _⟩ => ⟨S900000, .i32⟩
  | .hbm, ⟨47, _⟩ => ⟨S900000, .i32⟩
  | .hbm, ⟨48, _⟩ => ⟨S900000x1, .i32⟩
  | .hbm, ⟨49, _⟩ => ⟨S900000, .f32⟩
  | .hbm, ⟨50, _⟩ => ⟨S900000, .f32⟩
  | .hbm, ⟨51, _⟩ => ⟨S900000x1, .f32⟩
  | .hbm, ⟨52, _⟩ => ⟨S100000x64, .f32⟩
  | .hbm, ⟨53, _⟩ => ⟨S_, .i32⟩
  | .hbm, ⟨54, _⟩ => ⟨S900000, .i32⟩
  | .hbm, ⟨55, _⟩ => ⟨S900000, .i1⟩
  | .hbm, ⟨56, _⟩ => ⟨S_, .i32⟩
  | .hbm, ⟨57, _⟩ => ⟨S900000, .i32⟩
  | .hbm, ⟨58, _⟩ => ⟨S900000, .i32⟩
  | .hbm, ⟨59, _⟩ => ⟨S900000, .i32⟩
  | .hbm, ⟨60, _⟩ => ⟨S900000x1, .i32⟩
  | .hbm, ⟨61, _⟩ => ⟨S900000x64, .f32⟩
  | .hbm, ⟨62, _⟩ => ⟨S900000x64, .f32⟩
  | .hbm, ⟨63, _⟩ => ⟨S900000x64, .f32⟩
  | .hbm, ⟨64, _⟩ => ⟨S_, .f32⟩
  | .hbm, ⟨65, _⟩ => ⟨S100000x64, .f32⟩
  | .hbm, ⟨66, _⟩ => ⟨S900000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S_, .i32⟩
  | .hbm, ⟨71, _⟩ => ⟨S900000, .i32⟩
  | .hbm, ⟨72, _⟩ => ⟨S900000, .i1⟩
  | .hbm, ⟨73, _⟩ => ⟨S_, .i32⟩
  | .hbm, ⟨74, _⟩ => ⟨S900000, .i32⟩
  | .hbm, ⟨75, _⟩ => ⟨S900000, .i32⟩
  | .hbm, ⟨76, _⟩ => ⟨S900000, .i32⟩
  | .hbm, ⟨77, _⟩ => ⟨S900000x1, .i32⟩
  | .hbm, ⟨78, _⟩ => ⟨S900000x64, .f32⟩
  | .hbm, ⟨79, _⟩ => ⟨S900000x64, .f32⟩
  | .hbm, ⟨80, _⟩ => ⟨S900000x64, .f32⟩
  | .hbm, ⟨81, _⟩ => ⟨S_, .f32⟩
  | .hbm, ⟨82, _⟩ => ⟨S100000x64, .f32⟩
  | .hbm, ⟨83, _⟩ => ⟨S900000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S_, .i32⟩
  | .hbm, ⟨88, _⟩ => ⟨S900000, .i32⟩
  | .hbm, ⟨89, _⟩ => ⟨S900000, .i1⟩
  | .hbm, ⟨90, _⟩ => ⟨S_, .i32⟩
  | .hbm, ⟨91, _⟩ => ⟨S900000, .i32⟩
  | .hbm, ⟨92, _⟩ => ⟨S900000, .i32⟩
  | .hbm, ⟨93, _⟩ => ⟨S900000, .i32⟩
  | .hbm, ⟨94, _⟩ => ⟨S900000x1, .i32⟩
  | .hbm, ⟨95, _⟩ => ⟨S900000x64, .f32⟩
  | .hbm, ⟨96, _⟩ => ⟨S900000x64, .f32⟩
  | .hbm, ⟨97, _⟩ => ⟨S900000x64, .f32⟩
  | .hbm, ⟨98, _⟩ => ⟨S_, .f32⟩
  | .hbm, ⟨99, _⟩ => ⟨S100000x64, .f32⟩
  | .hbm, ⟨100, _⟩ => ⟨S900000x1, .i32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S1x64, .f32⟩
  | .hbm, ⟨105, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S10000x64_S64x64_S10000x64_1_0_0_1_n_n_wf : DotDims.WF S10000x64 S64x64 S10000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v71) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S100000 : Shape := ⟨1, ![100000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x64 : Shape := ⟨2, ![900000, 64]⟩
abbrev S1x64 : Shape := ⟨2, ![1, 64]⟩

abbrev nBuf : Space → Nat
  | .hbm => 126
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S100000, .i32⟩
  | .hbm, ⟨12, _⟩ => ⟨S1x800000, .i32⟩
  | .hbm, ⟨13, _⟩ => ⟨S800000, .i32⟩
  | .hbm, ⟨14, _⟩ => ⟨S900000, .i32⟩
  | .hbm, ⟨15, _⟩ => ⟨S1x800000, .i32⟩
  | .hbm, ⟨16, _⟩ => ⟨S800000, .i32⟩
  | .hbm, ⟨17, _⟩ => ⟨S900000, .i32⟩
  | .hbm, ⟨18, _⟩ => ⟨S_, .f32⟩
  | .hbm, ⟨19, _⟩ => ⟨S900000, .f32⟩
  | .hbm, ⟨20, _⟩ => ⟨S_, .f32⟩
  | .hbm, ⟨21, _⟩ => ⟨S100000, .f32⟩
  | .hbm, ⟨22, _⟩ => ⟨S900000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S900000, .i32⟩
  | .hbm, ⟨34, _⟩ => ⟨S900000, .i1⟩
  | .hbm, ⟨35, _⟩ => ⟨S_, .i32⟩
  | .hbm, ⟨36, _⟩ => ⟨S900000, .i32⟩
  | .hbm, ⟨37, _⟩ => ⟨S900000, .i32⟩
  | .hbm, ⟨38, _⟩ => ⟨S900000, .i32⟩
  | .hbm, ⟨39, _⟩ => ⟨S900000x1, .i32⟩
  | .hbm, ⟨40, _⟩ => ⟨S900000, .f32⟩
  | .hbm, ⟨41, _⟩ => ⟨S_, .i32⟩
  | .hbm, ⟨42, _⟩ => ⟨S900000, .i32⟩
  | .hbm, ⟨43, _⟩ => ⟨S900000, .i1⟩
  | .hbm, ⟨44, _⟩ => ⟨S_, .i32⟩
  | .hbm, ⟨45, _⟩ => ⟨S900000, .i32⟩
  | .hbm, ⟨46, _⟩ => ⟨S900000, .i32⟩
  | .hbm, ⟨47, _⟩ => ⟨S900000, .i32⟩
  | .hbm, ⟨48, _⟩ => ⟨S900000x1, .i32⟩
  | .hbm, ⟨49, _⟩ => ⟨S900000, .f32⟩
  | .hbm, ⟨50, _⟩ => ⟨S100000x64, .f32⟩
  | .hbm, ⟨51, _⟩ => ⟨S_, .i32⟩
  | .hbm, ⟨52, _⟩ => ⟨S900000, .i32⟩
  | .hbm, ⟨53, _⟩ => ⟨S900000, .i1⟩
  | .hbm, ⟨54, _⟩ => ⟨S_, .i32⟩
  | .hbm, ⟨55, _⟩ => ⟨S900000, .i32⟩
  | .hbm, ⟨56, _⟩ => ⟨S900000, .i32⟩
  | .hbm, ⟨57, _⟩ => ⟨S900000, .i32⟩
  | .hbm, ⟨58, _⟩ => ⟨S900000x1, .i32⟩
  | .hbm, ⟨59, _⟩ => ⟨S900000x64, .f32⟩
  | .hbm, ⟨60, _⟩ => ⟨S900000, .f32⟩
  | .hbm, ⟨61, _⟩ => ⟨S900000x1, .f32⟩
  | .hbm, ⟨62, _⟩ => ⟨S900000x64, .f32⟩
  | .hbm, ⟨63, _⟩ => ⟨S900000x64, .f32⟩
  | .hbm, ⟨64, _⟩ => ⟨S_, .f32⟩
  | .hbm, ⟨65, _⟩ => ⟨S100000x64, .f32⟩
  | .hbm, ⟨66, _⟩ => ⟨S900000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S900000, .i32⟩
  | .hbm, ⟨77, _⟩ => ⟨S900000, .i1⟩
  | .hbm, ⟨78, _⟩ => ⟨S_, .i32⟩
  | .hbm, ⟨79, _⟩ => ⟨S900000, .i32⟩
  | .hbm, ⟨80, _⟩ => ⟨S900000, .i32⟩
  | .hbm, ⟨81, _⟩ => ⟨S900000, .i32⟩
  | .hbm, ⟨82, _⟩ => ⟨S900000x1, .i32⟩
  | .hbm, ⟨83, _⟩ => ⟨S900000x64, .f32⟩
  | .hbm, ⟨84, _⟩ => ⟨S900000, .f32⟩
  | .hbm, ⟨85, _⟩ => ⟨S900000x1, .f32⟩
  | .hbm, ⟨86, _⟩ => ⟨S900000x64, .f32⟩
  | .hbm, ⟨87, _⟩ => ⟨S900000x64, .f32⟩
  | .hbm, ⟨88, _⟩ => ⟨S_, .f32⟩
  | .hbm, ⟨89, _⟩ => ⟨S100000x64, .f32⟩
  | .hbm, ⟨90, _⟩ => ⟨S900000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S_, .i32⟩
  | .hbm, ⟨100, _⟩ => ⟨S900000, .i32⟩
  | .hbm, ⟨101, _⟩ => ⟨S900000, .i1⟩
  | .hbm, ⟨102, _⟩ => ⟨S_, .i32⟩
  | .hbm, ⟨103, _⟩ => ⟨S900000, .i32⟩
  | .hbm, ⟨104, _⟩ => ⟨S900000, .i32⟩
  | .hbm, ⟨105, _⟩ => ⟨S900000, .i32⟩
  | .hbm, ⟨106, _⟩ => ⟨S900000x1, .i32⟩
  | .hbm, ⟨107, _⟩ => ⟨S900000x64, .f32⟩
  | .hbm, ⟨108, _⟩ => ⟨S900000, .f32⟩
  | .hbm, ⟨109, _⟩ => ⟨S900000x1, .f32⟩
  | .hbm, ⟨110, _⟩ => ⟨S900000x64, .f32⟩
  | .hbm, ⟨111, _⟩ => ⟨S900000x64, .f32⟩
  | .hbm, ⟨112, _⟩ => ⟨S_, .f32⟩
  | .hbm, ⟨113, _⟩ => ⟨S100000x64, .f32⟩
  | .hbm, ⟨114, _⟩ => ⟨S900000x1, .i32⟩
  | .hbm, ⟨115, _⟩ => ⟨S100000x64, .f32⟩
  | .hbm, ⟨116, _⟩ => ⟨S1x64, .f32⟩
  | .hbm, ⟨117, _⟩ => ⟨S100000x64, .f32⟩
  | .hbm, ⟨118, _⟩ => ⟨S100000x64, .f32⟩
  | .hbm, ⟨119, _⟩ => ⟨S_, .f32⟩
  | .hbm, ⟨120, _⟩ => ⟨S100000x64, .f32⟩
  | .hbm, ⟨121, _⟩ => ⟨S100000x64, .f32⟩
  | .hbm, ⟨122, _⟩ => ⟨S100000x64, .f32⟩
  | .hbm, ⟨123, _⟩ => ⟨S1x64, .f32⟩
  | .hbm, ⟨124, _⟩ => ⟨S100000x64, .f32⟩
  | .hbm, ⟨125, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call2_cst : Ref sig .tc := ⟨.hbm, 95, rfl⟩
abbrev main_call2_v0 : Ref sig .tc := ⟨.hbm, 96, rfl⟩
abbrev main_v66 : Ref sig .tc := ⟨.hbm, 97, rfl⟩
abbrev main_v67 : Ref sig .tc := ⟨.hbm, 98, rfl⟩
abbrev main_c_12 : Ref sig .tc := ⟨.hbm, 99, rfl⟩
abbrev main_v68 : Ref sig .tc := ⟨.hbm, 100, rfl⟩
abbrev main_v69 : Ref sig .tc := ⟨.hbm, 101, rfl⟩
abbrev main_c_13 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_14 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call3_cst : Ref sig .tc := ⟨.hbm, 119, rfl⟩
abbrev main_call3_v0 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x64_S64x64_S100000x64_1_0_0_1_n_n_wf : DotDims.WF S100000x64 S64x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

class Facts : Prop extends Facts₀ where

variable [Facts]
-- ==== Proof.Spec.lean ====
/-
  What the graph network computes, as functions of whole arrays. N = 100000 nodes with 64 features, E = 800000 edges
  given as a [2, E] table of node numbers; every node also gets a self loop, so there are E + N = 900000 messages.

    deg[v]   = number of messages arriving at v                      (a scatter-add of ones)
    dinv[v]  = deg[v]^(-1/2) where deg[v] > 0, else 0
    scale[k] = dinv[src k] * dinv[dst k]                              (one factor per message, the same for all 64 features)
    agg h    = for every node v, the sum over the messages k with dst k = v of h[src k, :] * scale[k]
    layer h W b = relu (agg (h · W) + b)

  The network is three such layers; it returns the third layer's activations and one more linear map of them, plus a bias.
  Everything about the edge table — the index columns, the degrees, the scale — enters only through `agg`, which both
  programs compute by the same host operations; so it is kept here as ONE function of the edge table and a feature
  array, never opened. The dimension records and shapes are the reference program's own.
-/
import proofs.«100119_j19430432047388_1_alg».proof.Proof.Gen.ReferenceIdeal

noncomputable section

namespace Cert.Spec

open Cert.ReferenceIdeal Cert.ReferenceIdeal.Gen Idealize.ShloMosaic

variable {F : FTy → Type} [FloatOps F]

/-- The messages' source nodes: row 0 of the edge table, then every node once (the self loops). -/
def src (e : IVec S2x800000 32) : IVec S900000 32 :=
  concatenate S900000 0 [⟨S800000, (shapeCast _ (extractStridedSlice S1x800000 ![0, 0] e slices_S2x800000_S1x800000_0_0) shapeCasts_S1x800000_S800000)⟩, ⟨S100000, (iotaInDim S100000 32 0)⟩] concatenates_S800000_S100000_S900000_d0

/-- The messages' destination nodes: row 1 of the edge table, then every node once. -/
def dst (e : IVec S2x800000 32) : IVec S900000 32 :=
  concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0

/-- The destinations as the index column a scatter takes. -/
def col (e : IVec S2x800000 32) : IVec S900000x1 32 :=
  broadcastInDim S900000x1 ![0] bcast_S900000_S900000x1_0 (dst e)

/-- Node numbers as the index column a gather takes: a negative number counts from the end (N is added to it). -/
def wrap (v : IVec S900000 32) : IVec S900000x1 32 :=
  broadcastInDim S900000x1 ![0] bcast_S900000_S900000x1_0 (select (cmpi .slt v (broadcastInDim S900000 ![] bcast_S_S900000 (constantI S_ 32 0#32))) (addi v (broadcastInDim S900000 ![] bcast_S_S900000 (constantI S_ 32 100000#32))) v)

/-- Every node's degree: ones scattered to the destinations and added up. -/
def deg (e : IVec S2x800000 32) : FVec F S100000 .f32 :=
  Host.scatterAdd scatter_S100000_S900000x1_S900000_n_0_0_1 (broadcastInDim S100000 ![] bcast_S_S100000 (constant S_ .f32 0x00000000#32)) (col e) (broadcastInDim S900000 ![] bcast_S_S900000 (constant S_ .f32 0x3F800000#32))

/-- deg^(-1/2) where the degree is positive, 0 elsewhere. -/
def dinv (e : IVec S2x800000 32) : FVec F S100000 .f32 :=
  select (cmpf (F := F) .ogt (deg e) (broadcastInDim S100000 ![] bcast_S_S100000 (constant S_ .f32 0x00000000#32))) (Host.rsqrt (deg e)) (broadcastInDim S100000 ![] bcast_S_S100000 (id (constant S_ .f32 0x00000000#32)))

/-- One factor per message: dinv at its source times dinv at its destination, as a 900000 × 1 column. -/
def scaleCol (e : IVec S2x800000 32) : FVec F S900000x1 .f32 :=
  broadcastInDim S900000x1 ![0] bcast_S900000_S900000x1_0 (mulf (Host.gather gather_S100000_S900000x1_S900000_n_0_n_n_0_1_1 (dinv e) (wrap (src e))) (Host.gather gather_S100000_S900000x1_S900000_n_0_n_n_0_1_1 (dinv e) (wrap (dst e))))

/-- The same factor repeated over a message's 64 features. -/
def scale (e : IVec S2x800000 32) : FVec F S900000x64 .f32 :=
  broadcastInDim S900000x64 ![0, 1] bcast_S900000x1_S900000x64_0_1 (scaleCol e)

/-- The normalised adjacency applied to a feature array: gather every message's source row, scale it, add it into its
    destination row. -/
def agg (e : IVec S2x800000 32) (h : FVec F S100000x64 .f32) : FVec F S100000x64 .f32 :=
  Host.scatterAdd scatter_S100000x64_S900000x1_S900000x64_1_0_0_1 (broadcastInDim S100000x64 ![] bcast_S_S100000x64 (constant S_ .f32 0x00000000#32)) (col e) (mulf (Host.gather gather_S100000x64_S900000x1_S900000x64_1_0_n_n_0_1_164 h (wrap (src e))) (scale e))

/-- A feature array times a 64 × 64 weight matrix. -/
def lin (h : FVec F S100000x64 .f32) (W : FVec F S64x64 .f32) : FVec F S100000x64 .f32 :=
  Host.dotGeneral dot_S100000x64_S64x64_S100000x64_1_0_0_1_n_n none h W

/-- A bias vector as a 1 × 64 row. -/
def asRow (b : FVec F S64 .f32) : FVec F S1x64 .f32 :=
  broadcastInDim S1x64 ![1] bcast_S64_S1x64_1 b

/-- A 1 × 64 row repeated on every node. -/
def rows (b : FVec F S1x64 .f32) : FVec F S100000x64 .f32 :=
  broadcastInDim S100000x64 ![0, 1] bcast_S1x64_S100000x64_0_1 b

/-- relu (h + b), the bias a 1 × 64 row. -/
def biasRelu (h : FVec F S100000x64 .f32) (b : FVec F S1x64 .f32) : FVec F S100000x64 .f32 :=
  maximumf (addf h (rows b)) (broadcastInDim S100000x64 ![] bcast_S_S100000x64 (constant S_ .f32 0x00000000#32))

/-- h · W + b, the bias a 1 × 64 row. -/
def linBias (h : FVec F S100000x64 .f32) (W : FVec F S64x64 .f32) (b : FVec F S1x64 .f32) : FVec F S100000x64 .f32 :=
  addf (lin h W) (rows b)

/-- The third layer's activations. -/
def hidden (x : FVec F S100000x64 .f32) (e : IVec S2x800000 32) (W0 : FVec F S64x64 .f32) (b0 : FVec F S64 .f32)
    (W1 : FVec F S64x64 .f32) (b1 : FVec F S64 .f32) (W2 : FVec F S64x64 .f32) (b2 : FVec F S64 .f32) : FVec F S100000x64 .f32 :=
  biasRelu (agg e (lin (biasRelu (agg e (lin (biasRelu (agg e (lin x W0)) (asRow b0)) W1)) (asRow b1)) W2)) (asRow b2)

/-- The network's second result: the final linear layer of the third layer's activations. -/
def final (x : FVec F S100000x64 .f32) (e : IVec S2x800000 32) (W0 : FVec F S64x64 .f32) (b0 : FVec F S64 .f32)
    (W1 : FVec F S64x64 .f32) (b1 : FVec F S64 .f32) (W2 : FVec F S64x64 .f32) (b2 : FVec F S64 .f32)
    (Wl : FVec F S64x64 .f32) (bl : FVec F S64 .f32) : FVec F S100000x64 .f32 :=
  linBias (hidden x e W0 b0 W1 b1 W2 b2) Wl (asRow bl)

end Cert.Spec

end
-- ==== Proof.Rows.lean ====
/-
  Rows of a block. Each of the five kernels walks the node axis in ten blocks of 10000 rows; at a block it sees rows
  10000·r … 10000·r + 9999 of its [100000, 64] operand and the whole of its small operands (a 64 × 64 weight matrix, a
  1 × 64 bias row), and writes the same rows of its result. The feature axis (64) is never cut, so a row of the product
  x · W is the same sum over the 64 features whether it is taken in the block or in the whole array, and bias and relu
  act entry by entry. Hence every block's value is the matching rows of ONE whole-array function — the one the reference
  spells with a host matrix product, a broadcast bias and a maximum with zero.
-/
import proofs.«100119_j19430432047388_1_alg».proof.Proof.Gen.KernelIdeal
import proofs.«100119_j19430432047388_1_alg».proof.Proof.Spec
import Idealize.ShloMosaic.Lib.ValueIdx
import Idealize.ShloMosaic.Lib.Pipeline.Value
import Idealize.ShloMosaic.PureOps.Ideal.Laws

noncomputable section

namespace Cert.Rows

open Idealize.ShloMosaic Idealize.ShloMosaic.ValueIdx

/-- Entry `y` of row block `r`, as an index of the whole [100000, 64] array: row 10000·r + y₀, column y₁. -/
def rowAt (r : Nat) (hr : r < 10) (y : Cert.KernelIdeal.S10000x64.Idx) : Cert.ReferenceIdeal.S100000x64.Idx :=
  ix2 ⟨r * 10000 + (y 0).val, by have h : (y 0).val < 10000 := (y 0).isLt; omega⟩ ⟨(y 1).val, (y 1).isLt⟩

/-! ## The two matrix products' operand indices, axis by axis

The kernel's product is over a block ([10000, 64] · [64, 64]), the reference's over the whole array; both contract the
left operand's axis 1 with the right operand's axis 0. -/

theorem lhsK_0 (i : Cert.KernelIdeal.S10000x64.Idx) (q : Cert.KernelIdeal.dot_S10000x64_S64x64_S10000x64_1_0_0_1_n_n.contr.Idx) :
    (Cert.KernelIdeal.dot_S10000x64_S64x64_S10000x64_1_0_0_1_n_n.lhsIdx i q 0).val = (i 0).val := by
  unfold DotDims.lhsIdx
  rw [dif_neg (show ¬(0 : Fin Cert.KernelIdeal.S10000x64.rank) ∈ Cert.KernelIdeal.dot_S10000x64_S64x64_S10000x64_1_0_0_1_n_n.lhsBatch by decide), dif_pos (show (0 : Fin Cert.KernelIdeal.S10000x64.rank) ∈ Cert.KernelIdeal.dot_S10000x64_S64x64_S10000x64_1_0_0_1_n_n.lhsNonContracting by decide)]
  rfl

theorem lhsK_1 (i : Cert.KernelIdeal.S10000x64.Idx) (q : Cert.KernelIdeal.dot_S10000x64_S64x64_S10000x64_1_0_0_1_n_n.contr.Idx) :
    (Cert.KernelIdeal.dot_S10000x64_S64x64_S10000x64_1_0_0_1_n_n.lhsIdx i q 1).val = (q ⟨0, by decide⟩).val :=
  Cert.KernelIdeal.dot_S10000x64_S64x64_S10000x64_1_0_0_1_n_n.lhsIdx_val_of_single rfl i q

theorem rhsK_0 (i : Cert.KernelIdeal.S10000x64.Idx) (q : Cert.KernelIdeal.dot_S10000x64_S64x64_S10000x64_1_0_0_1_n_n.contr.Idx) :
    (Cert.KernelIdeal.dot_S10000x64_S64x64_S10000x64_1_0_0_1_n_n.rhsIdx i q 0).val = (q ⟨0, by decide⟩).val :=
  Cert.KernelIdeal.dot_S10000x64_S64x64_S10000x64_1_0_0_1_n_n.rhsIdx_val_of_single rfl i q

theorem rhsK_1 (i : Cert.KernelIdeal.S10000x64.Idx) (q : Cert.KernelIdeal.dot_S10000x64_S64x64_S10000x64_1_0_0_1_n_n.contr.Idx) :
    (Cert.KernelIdeal.dot_S10000x64_S64x64_S10000x64_1_0_0_1_n_n.rhsIdx i q 1).val = (i 1).val := by
  unfold DotDims.rhsIdx
  rw [dif_neg (show ¬(1 : Fin Cert.KernelIdeal.S64x64.rank) ∈ Cert.KernelIdeal.dot_S10000x64_S64x64_S10000x64_1_0_0_1_n_n.rhsBatch by decide), dif_pos (show (1 : Fin Cert.KernelIdeal.S64x64.rank) ∈ Cert.KernelIdeal.dot_S10000x64_S64x64_S10000x64_1_0_0_1_n_n.rhsNonContracting by decide)]
  rfl

theorem lhsR_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl

theorem lhsR_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q

theorem rhsR_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q

theorem rhsR_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-! ## A block of the product is the rows of the whole product -/

/-- The kernel's block product — both operands first rounded to bf16, which is the identity on the extended reals, and
    accumulated into zeros — read at entry `j` is the whole-array product read at row block `r`'s entry `j`, when the
    block `y` holds those rows of `Y` and `w` is the weight matrix: the same sum over the 64 features. -/
theorem matmul_rows (Y : FVec Ideal Cert.ReferenceIdeal.S100000x64 .f32) (W : FVec Ideal Cert.ReferenceIdeal.S64x64 .f32) (r : Nat) (hr : r < 10)
    (y : FVec Ideal Cert.KernelIdeal.S10000x64 .f32) (hy : ∀ p, y p = Y (rowAt r hr p))
    (w : FVec Ideal Cert.KernelIdeal.S64x64 .f32) (hw : ∀ p, w p = W p) (hb : FTy.bits .bf16 < FTy.bits .f32) (j : Cert.KernelIdeal.S10000x64.Idx) :
    matmul Cert.KernelIdeal.dot_S10000x64_S64x64_S10000x64_1_0_0_1_n_n none (truncf .bf16 y hb) (truncf .bf16 w hb) (constant Cert.KernelIdeal.S10000x64 .f32 0x00000000#32) j
      = Cert.Spec.lin Y W (rowAt r hr j) := by
  refine (Ideal.matmul_constant_zero_apply Cert.KernelIdeal.dot_S10000x64_S64x64_S10000x64_1_0_0_1_n_n none _ _ j).trans ?_
  unfold Cert.Spec.lin
  refine Eq.trans ?_ (Ideal.dotGeneral_apply Cert.ReferenceIdeal.dot_S100000x64_S64x64_S100000x64_1_0_0_1_n_n none .single Y W (rowAt r hr j)).symm
  rw [← Equiv.sum_comp (contrEquiv1 Cert.KernelIdeal.dot_S10000x64_S64x64_S10000x64_1_0_0_1_n_n 64 rfl rfl).symm,
    ← Equiv.sum_comp (contrEquiv1 Cert.ReferenceIdeal.dot_S100000x64_S64x64_S100000x64_1_0_0_1_n_n 64 rfl rfl).symm]
  refine Finset.sum_congr rfl fun k _ => ?_
  have hkK := contrEquiv1_symm_val Cert.KernelIdeal.dot_S10000x64_S64x64_S10000x64_1_0_0_1_n_n 64 rfl rfl k
  have hkR := contrEquiv1_symm_val Cert.ReferenceIdeal.dot_S100000x64_S64x64_S100000x64_1_0_0_1_n_n 64 rfl rfl k
  rw [truncf_apply, truncf_apply, hy, hw]
  have el : rowAt r hr (Cert.KernelIdeal.dot_S10000x64_S64x64_S10000x64_1_0_0_1_n_n.lhsIdx j ((contrEquiv1 Cert.KernelIdeal.dot_S10000x64_S64x64_S10000x64_1_0_0_1_n_n 64 rfl rfl).symm k))
      = Cert.ReferenceIdeal.dot_S100000x64_S64x64_S100000x64_1_0_0_1_n_n.lhsIdx (rowAt r hr j) ((contrEquiv1 Cert.ReferenceIdeal.dot_S100000x64_S64x64_S100000x64_1_0_0_1_n_n 64 rfl rfl).symm k) := funext fun a => Fin.ext (by
    match a with
    | ⟨0, _⟩ =>
      show r * 10000 + (Cert.KernelIdeal.dot_S10000x64_S64x64_S10000x64_1_0_0_1_n_n.lhsIdx j _ 0).val = (Cert.ReferenceIdeal.dot_S100000x64_S64x64_S100000x64_1_0_0_1_n_n.lhsIdx (rowAt r hr j) _ 0).val
      rw [lhsK_0, lhsR_0]; rfl
    | ⟨1, _⟩ =>
      show (Cert.KernelIdeal.dot_S10000x64_S64x64_S10000x64_1_0_0_1_n_n.lhsIdx j _ 1).val = (Cert.ReferenceIdeal.dot_S100000x64_S64x64_S100000x64_1_0_0_1_n_n.lhsIdx (rowAt r hr j) _ 1).val
      exact ((lhsK_1 _ _).trans hkK).trans ((lhsR_1 _ _).trans hkR).symm)
  have er : Cert.KernelIdeal.dot_S10000x64_S64x64_S10000x64_1_0_0_1_n_n.rhsIdx j ((contrEquiv1 Cert.KernelIdeal.dot_S10000x64_S64x64_S10000x64_1_0_0_1_n_n 64 rfl rfl).symm k)
      = Cert.ReferenceIdeal.dot_S100000x64_S64x64_S100000x64_1_0_0_1_n_n.rhsIdx (rowAt r hr j) ((contrEquiv1 Cert.ReferenceIdeal.dot_S100000x64_S64x64_S100000x64_1_0_0_1_n_n 64 rfl rfl).symm k) := funext fun a => Fin.ext (by
    match a with
    | ⟨0, _⟩ =>
      show (Cert.KernelIdeal.dot_S10000x64_S64x64_S10000x64_1_0_0_1_n_n.rhsIdx j _ 0).val = (Cert.ReferenceIdeal.dot_S100000x64_S64x64_S100000x64_1_0_0_1_n_n.rhsIdx (rowAt r hr j) _ 0).val
      exact ((rhsK_0 _ _).trans hkK).trans ((rhsR_0 _ _).trans hkR).symm
    | ⟨1, _⟩ =>
      show (Cert.KernelIdeal.dot_S10000x64_S64x64_S10000x64_1_0_0_1_n_n.rhsIdx j _ 1).val = (Cert.ReferenceIdeal.dot_S100000x64_S64x64_S100000x64_1_0_0_1_n_n.rhsIdx (rowAt r hr j) _ 1).val
      rw [rhsK_1, rhsR_1]; rfl)
  rw [el, er]

/-! ## Bias and relu, entry by entry -/

/-- A 1 × 64 row broadcast over a block, read at entry `p`, is the row broadcast over the whole array read at the same
    entry of row block `r`: both are the row's column p₁. -/
theorem rows_rows (B : FVec Ideal Cert.ReferenceIdeal.S1x64 .f32) (r : Nat) (hr : r < 10) (x1 : FVec Ideal Cert.KernelIdeal.S1x64 .f32) (h1 : ∀ p, x1 p = B p)
    (hc1 : Cert.KernelIdeal.S1x64.ShapeCasts Cert.KernelIdeal.S1x64) (hbT : Cert.KernelIdeal.S1x64.Broadcasts Cert.KernelIdeal.S10000x64) (p : Cert.KernelIdeal.S10000x64.Idx) :
    broadcastTo Cert.KernelIdeal.S10000x64 (shapeCast Cert.KernelIdeal.S1x64 x1 hc1) hbT p = Cert.Spec.rows B (rowAt r hr p) := by
  unfold Cert.Spec.rows
  rw [shapeCast_self]
  rw [broadcastTo_apply x1 hbT p (ix2 (0 : Fin 1) ⟨(p 1).val, (p 1).isLt⟩) (by
    intro a
    match a with
    | ⟨0, _⟩ => rfl
    | ⟨1, _⟩ => rfl)]
  rw [broadcastInDim_apply _ _ B (rowAt r hr p) (ix2 (0 : Fin 1) ⟨(p 1).val, (p 1).isLt⟩) (by
    intro a
    match a with
    | ⟨0, _⟩ => rfl
    | ⟨1, _⟩ => rfl)]
  exact h1 _

/-- relu (x + b) on a block is relu (X + b) on the whole array, at the block's rows. -/
theorem biasRelu_rows (X : FVec Ideal Cert.ReferenceIdeal.S100000x64 .f32) (B : FVec Ideal Cert.ReferenceIdeal.S1x64 .f32) (r : Nat) (hr : r < 10)
    (x0 : FVec Ideal Cert.KernelIdeal.S10000x64 .f32) (h0 : ∀ p, x0 p = X (rowAt r hr p)) (x1 : FVec Ideal Cert.KernelIdeal.S1x64 .f32) (h1 : ∀ p, x1 p = B p)
    (hc0 : Cert.KernelIdeal.S10000x64.ShapeCasts Cert.KernelIdeal.S10000x64) (hc1 : Cert.KernelIdeal.S1x64.ShapeCasts Cert.KernelIdeal.S1x64) (hbT : Cert.KernelIdeal.S1x64.Broadcasts Cert.KernelIdeal.S10000x64) (p : Cert.KernelIdeal.S10000x64.Idx) :
    maximumf (addf (shapeCast Cert.KernelIdeal.S10000x64 x0 hc0) (broadcastTo Cert.KernelIdeal.S10000x64 (shapeCast Cert.KernelIdeal.S1x64 x1 hc1) hbT))
        (broadcast Cert.KernelIdeal.S10000x64 (Scalar.ofBits (F := Ideal) .f32 0x00000000#32)) p
      = Cert.Spec.biasRelu X B (rowAt r hr p) := by
  unfold Cert.Spec.biasRelu
  rw [shapeCast_self, maximumf_apply, maximumf_apply, addf_apply, addf_apply, broadcast_apply, h0,
    rows_rows B r hr x1 h1 hc1 hbT p]
  rw [broadcastInDim_apply _ _ (constant (F := Ideal) Cert.ReferenceIdeal.S_ .f32 0x00000000#32) (rowAt r hr p) ix0 (fun a => a.elim0)]
  rfl

/-- (x · W) + b on a block is (X · W) + b on the whole array, at the block's rows. -/
theorem linBias_rows (Y : FVec Ideal Cert.ReferenceIdeal.S100000x64 .f32) (W : FVec Ideal Cert.ReferenceIdeal.S64x64 .f32) (B : FVec Ideal Cert.ReferenceIdeal.S1x64 .f32) (r : Nat) (hr : r < 10)
    (y : FVec Ideal Cert.KernelIdeal.S10000x64 .f32) (hy : ∀ p, y p = Y (rowAt r hr p)) (w : FVec Ideal Cert.KernelIdeal.S64x64 .f32) (hw : ∀ p, w p = W p)
    (x1 : FVec Ideal Cert.KernelIdeal.S1x64 .f32) (h1 : ∀ p, x1 p = B p) (hb : FTy.bits .bf16 < FTy.bits .f32)
    (hc1 : Cert.KernelIdeal.S1x64.ShapeCasts Cert.KernelIdeal.S1x64) (hbT : Cert.KernelIdeal.S1x64.Broadcasts Cert.KernelIdeal.S10000x64) (j : Cert.KernelIdeal.S10000x64.Idx) :
    addf (matmul Cert.KernelIdeal.dot_S10000x64_S64x64_S10000x64_1_0_0_1_n_n none (truncf .bf16 y hb) (truncf .bf16 w hb) (constant Cert.KernelIdeal.S10000x64 .f32 0x00000000#32))
        (broadcastTo Cert.KernelIdeal.S10000x64 (shapeCast Cert.KernelIdeal.S1x64 x1 hc1) hbT) j
      = Cert.Spec.linBias Y W B (rowAt r hr j) := by
  unfold Cert.Spec.linBias
  rw [addf_apply, addf_apply, matmul_rows Y W r hr y hy w hw hb j, rows_rows B r hr x1 h1 hc1 hbT j]

/-! ## The bias vector as a row -/

/-- A 64-vector reshaped to 1 × 64 is the vector laid along axis 1: the way the kernel's program makes its bias rows
    (a reshape) and the way the reference does (a broadcast into a new leading axis) give the same row, whatever the
    entries are. -/
theorem reshape_row {F : FTy → Type} [FloatOps F] (b : FVec F Cert.KernelIdeal.S64 .f32) (h : Cert.KernelIdeal.S64.ShapeCasts Cert.KernelIdeal.S1x64) :
    shapeCast Cert.KernelIdeal.S1x64 b h = Cert.Spec.asRow (F := F) b := by
  funext j
  unfold Cert.Spec.asRow
  rw [shapeCast_apply b h j (ix1 ⟨(j 1).val, (j 1).isLt⟩) (by
    rw [Shape.rowMajor_val_one, Shape.rowMajor_val_two]
    have h0 : (j 0).val < 1 := (j 0).isLt
    show (j 1).val = (j 0).val * 64 + (j 1).val
    omega)]
  rw [broadcastInDim_apply _ _ b j (ix1 ⟨(j 1).val, (j 1).isLt⟩) (by
    intro a
    match a with
    | ⟨0, _⟩ => rfl)]

end Cert.Rows

end
-- ==== Proof.HostChain.lean ====
/-
  The kernel program's host side. Between its five kernel regions the program runs stretches of host operations; the
  buffer contents at every boundary are a fold from the launch memory. Three buffers computed from the edge table before
  the first region — the messages' source nodes, their destination nodes and the per-message scale column — are never
  written again, so they hold the specification's functions of the edge table at every later boundary; each stretch
  between two regions is then one application of the normalised adjacency to the array the region before it left, and
  a reshape of the next bias vector into a row. Stated for any float family: nothing here computes with the entries.
-/
import proofs.«100119_j19430432047388_1_alg».proof.Proof.Gen.KernelIdeal.Frame
import proofs.«100119_j19430432047388_1_alg».proof.Proof.Rows

set_option maxRecDepth 16384
-- every lemma below pushes one buffer through a stretch of sixteen to twenty host operations, one rewrite an operation
set_option maxHeartbeats 1000000

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The edge table the program was launched with. -/
abbrev edges (c : Dev nD) : IVec Cert.ReferenceIdeal.S2x800000 32 := m ((c : Thread nD τ).loc main_arg1)

/-! ## Before the first region -/

theorem src3 (c : Dev nD) : W3 m ρ c (Proc.devRef .tc main_v3) = Cert.Spec.src (edges m c) := by
  dsimp only [W3, W2, W1, W0, hostOps0_2, hostOps0_1, hostOps0]
  after_results
  rfl

theorem dst3 (c : Dev nD) : W3 m ρ c (Proc.devRef .tc main_v6) = Cert.Spec.dst (edges m c) := by
  dsimp only [W3, W2, W1, W0, hostOps0_2, hostOps0_1, hostOps0]
  after_results
  rfl

theorem src2 (c : Dev nD) : W2 m ρ c (Proc.devRef .tc main_v3) = Cert.Spec.src (edges m c) := by
  dsimp only [W2, W1, W0, hostOps0_1, hostOps0]
  after_results
  rfl

theorem dst2 (c : Dev nD) : W2 m ρ c (Proc.devRef .tc main_v6) = Cert.Spec.dst (edges m c) := by
  dsimp only [W2, W1, W0, hostOps0_1, hostOps0]
  after_results
  rfl

theorem deg1 (c : Dev nD) : W1 m ρ c (Proc.devRef .tc main_v10) = Cert.Spec.deg (F := F) (edges m c) := by
  dsimp only [W1, W0, hostOps0]
  after_results
  rfl

theorem dinv2 (c : Dev nD) : W2 m ρ c (Proc.devRef .tc main_v14) = Cert.Spec.dinv (F := F) (edges m c) := by
  dsimp only [W2, W1, W0, hostOps0_1, hostOps0]
  after_results
  rfl

theorem scale3 (c : Dev nD) : W3 m ρ c (Proc.devRef .tc main_v30) = Cert.Spec.scaleCol (F := F) (edges m c) := by
  have h14 := dinv2 m ρ c
  have h3 := src2 m ρ c
  have h6 := dst2 m ρ c
  dsimp only [W3, hostOps0_2]
  generalize W2 m ρ c = Wb at h14 h3 h6 ⊢
  after_results
  rw [h14, h3, h6]
  rfl

/-! ## The three edge-derived buffers at every later boundary -/

/-- Of a boundary's contents `W`: the messages' sources, their destinations and the scale column are the
    specification's functions of the edge table. -/
structure Edge (c : Dev nD) (W : Valuation τ sig (Elt F)) : Prop where
  src : W (Proc.devRef .tc main_v3) = Cert.Spec.src (edges m c)
  dst : W (Proc.devRef .tc main_v6) = Cert.Spec.dst (edges m c)
  scale : W (Proc.devRef .tc main_v30) = Cert.Spec.scaleCol (F := F) (edges m c)

/-- At the first region's entry, by computing the host operations before it. -/
theorem edge3 (c : Dev nD) : Edge m c (W3 m ρ c) := ⟨src3 m ρ c, dst3 m ρ c, scale3 m ρ c⟩

/-- A region writes only its own arrays, and none of the three is one. -/
theorem edge4 (c : Dev nD) : Edge m c (W4 m ρ c) :=
  ⟨(W4_of_ne m ρ c main_v3 (by decide)).trans (edge3 m ρ c).src,
   (W4_of_ne m ρ c main_v6 (by decide)).trans (edge3 m ρ c).dst,
   (W4_of_ne m ρ c main_v30 (by decide)).trans (edge3 m ρ c).scale⟩

/-- No host operation between the first two regions writes any of the three. -/
theorem edge5 (c : Dev nD) : Edge m c (W5 m ρ c) := by
  have h := edge4 m ρ c
  refine ⟨?_, ?_, ?_⟩
  · dsimp only [W5, hostOps1]; after_results; exact h.src
  · dsimp only [W5, hostOps1]; after_results; exact h.dst
  · dsimp only [W5, hostOps1]; after_results; exact h.scale

theorem edge6 (c : Dev nD) : Edge m c (W6 m ρ c) :=
  ⟨(W6_of_ne m ρ c main_v3 (by decide)).trans (edge5 m ρ c).src,
   (W6_of_ne m ρ c main_v6 (by decide)).trans (edge5 m ρ c).dst,
   (W6_of_ne m ρ c main_v30 (by decide)).trans (edge5 m ρ c).scale⟩

theorem edge7 (c : Dev nD) : Edge m c (W7 m ρ c) := by
  have h := edge6 m ρ c
  refine ⟨?_, ?_, ?_⟩
  · dsimp only [W7, hostOps2]; after_results; exact h.src
  · dsimp only [W7, hostOps2]; after_results; exact h.dst
  · dsimp only [W7, hostOps2]; after_results; exact h.scale

theorem edge8 (c : Dev nD) : Edge m c (W8 m ρ c) :=
  ⟨(W8_of_ne m ρ c main_v3 (by decide)).trans (edge7 m ρ c).src,
   (W8_of_ne m ρ c main_v6 (by decide)).trans (edge7 m ρ c).dst,
   (W8_of_ne m ρ c main_v30 (by decide)).trans (edge7 m ρ c).scale⟩

/-! ## The argument arrays where the regions and the reshapes read them

No host operation and no region writes an argument; at the boundary where one is read it still holds its launch
contents. Each is walked back boundary by boundary: through a region because it is none of the region's arrays, through a
host stretch because no operation of the stretch writes it. -/

theorem arg0_3 (c : Dev nD) : W3 m ρ c (Proc.devRef .tc main_arg0) = m ((c : Thread nD τ).loc main_arg0) := by
  dsimp only [W3, W2, W1, W0, hostOps0_2, hostOps0_1, hostOps0]; after_results

theorem arg3_3 (c : Dev nD) : W3 m ρ c (Proc.devRef .tc main_arg3) = m ((c : Thread nD τ).loc main_arg3) := by
  dsimp only [W3, W2, W1, W0, hostOps0_2, hostOps0_1, hostOps0]; after_results

theorem arg4_4 (c : Dev nD) : W4 m ρ c (Proc.devRef .tc main_arg4) = m ((c : Thread nD τ).loc main_arg4) := by
  rw [W4_of_ne m ρ c main_arg4 (by decide)]
  dsimp only [W3, W2, W1, W0, hostOps0_2, hostOps0_1, hostOps0]; after_results

theorem arg5_5 (c : Dev nD) : W5 m ρ c (Proc.devRef .tc main_arg5) = m ((c : Thread nD τ).loc main_arg5) := by
  dsimp only [W5, hostOps1]; after_results
  rw [W4_of_ne m ρ c main_arg5 (by decide)]
  dsimp only [W3, W2, W1, W0, hostOps0_2, hostOps0_1, hostOps0]; after_results

theorem arg6_6 (c : Dev nD) : W6 m ρ c (Proc.devRef .tc main_arg6) = m ((c : Thread nD τ).loc main_arg6) := by
  rw [W6_of_ne m ρ c main_arg6 (by decide)]
  dsimp only [W5, hostOps1]; after_results
  rw [W4_of_ne m ρ c main_arg6 (by decide)]
  dsimp only [W3, W2, W1, W0, hostOps0_2, hostOps0_1, hostOps0]; after_results

theorem arg7_7 (c : Dev nD) : W7 m ρ c (Proc.devRef .tc main_arg7) = m ((c : Thread nD τ).loc main_arg7) := by
  dsimp only [W7, hostOps2]; after_results
  rw [W6_of_ne m ρ c main_arg7 (by decide)]
  dsimp only [W5, hostOps1]; after_results
  rw [W4_of_ne m ρ c main_arg7 (by decide)]
  dsimp only [W3, W2, W1, W0, hostOps0_2, hostOps0_1, hostOps0]; after_results

theorem arg8_8 (c : Dev nD) : W8 m ρ c (Proc.devRef .tc main_arg8) = m ((c : Thread nD τ).loc main_arg8) := by
  rw [W8_of_ne m ρ c main_arg8 (by decide)]
  dsimp only [W7, hostOps2]; after_results
  rw [W6_of_ne m ρ c main_arg8 (by decide)]
  dsimp only [W5, hostOps1]; after_results
  rw [W4_of_ne m ρ c main_arg8 (by decide)]
  dsimp only [W3, W2, W1, W0, hostOps0_2, hostOps0_1, hostOps0]; after_results

theorem arg10_10 (c : Dev nD) : W10 m ρ c (Proc.devRef .tc main_arg10) = m ((c : Thread nD τ).loc main_arg10) := by
  rw [W10_of_ne m ρ c main_arg10 (by decide)]
  dsimp only [W9, hostOps3]; after_results
  rw [W8_of_ne m ρ c main_arg10 (by decide)]
  dsimp only [W7, hostOps2]; after_results
  rw [W6_of_ne m ρ c main_arg10 (by decide)]
  dsimp only [W5, hostOps1]; after_results
  rw [W4_of_ne m ρ c main_arg10 (by decide)]
  dsimp only [W3, W2, W1, W0, hostOps0_2, hostOps0_1, hostOps0]; after_results

theorem arg9_11 (c : Dev nD) : W11 m ρ c (Proc.devRef .tc main_arg9) = m ((c : Thread nD τ).loc main_arg9) := by
  dsimp only [W11, hostOps4]; after_results
  rw [W10_of_ne m ρ c main_arg9 (by decide)]
  dsimp only [W9, hostOps3]; after_results
  rw [W8_of_ne m ρ c main_arg9 (by decide)]
  dsimp only [W7, hostOps2]; after_results
  rw [W6_of_ne m ρ c main_arg9 (by decide)]
  dsimp only [W5, hostOps1]; after_results
  rw [W4_of_ne m ρ c main_arg9 (by decide)]
  dsimp only [W3, W2, W1, W0, hostOps0_2, hostOps0_1, hostOps0]; after_results

/-! ## A stretch between two regions: the adjacency applied, and the next bias as a row -/

/-- After the first region: the aggregation of what it left. -/
theorem agg5 (c : Dev nD) :
    W5 m ρ c (Proc.devRef .tc main_v43) = Cert.Spec.agg (F := F) (edges m c) (W4 m ρ c (Proc.devRef .tc main_v31)) := by
  have h := edge4 m ρ c
  dsimp only [W5, hostOps1]
  after_results
  rw [h.src, h.dst, h.scale]
  rfl

/-- After the second region. -/
theorem agg7 (c : Dev nD) :
    W7 m ρ c (Proc.devRef .tc main_v57) = Cert.Spec.agg (F := F) (edges m c) (W6 m ρ c (Proc.devRef .tc main_v45)) := by
  have h := edge6 m ρ c
  dsimp only [W7, hostOps2]
  after_results
  rw [h.src, h.dst, h.scale]
  rfl

/-- After the third region. -/
theorem agg9 (c : Dev nD) :
    W9 m ρ c (Proc.devRef .tc main_v71) = Cert.Spec.agg (F := F) (edges m c) (W8 m ρ c (Proc.devRef .tc main_v59)) := by
  have h := edge8 m ρ c
  dsimp only [W9, hostOps3]
  after_results
  rw [h.src, h.dst, h.scale]
  rfl

/-- The first layer's bias, reshaped to a row for the second region. -/
theorem row5 (c : Dev nD) :
    W5 m ρ c (Proc.devRef .tc main_v44) = Cert.Spec.asRow (F := F) (m ((c : Thread nD τ).loc main_arg4)) := by
  dsimp only [W5, hostOps1]; after_results
  rw [arg4_4 m ρ c]
  exact Cert.Rows.reshape_row _ _

/-- The second layer's bias, for the third region. -/
theorem row7 (c : Dev nD) :
    W7 m ρ c (Proc.devRef .tc main_v58) = Cert.Spec.asRow (F := F) (m ((c : Thread nD τ).loc main_arg6)) := by
  dsimp only [W7, hostOps2]; after_results
  rw [arg6_6 m ρ c]
  exact Cert.Rows.reshape_row _ _

/-- The third layer's bias, for the fourth region. -/
theorem row9 (c : Dev nD) :
    W9 m ρ c (Proc.devRef .tc main_v72) = Cert.Spec.asRow (F := F) (m ((c : Thread nD τ).loc main_arg8)) := by
  dsimp only [W9, hostOps3]; after_results
  rw [arg8_8 m ρ c]
  exact Cert.Rows.reshape_row _ _

/-- The final layer's bias, for the fifth region. -/
theorem row11 (c : Dev nD) :
    W11 m ρ c (Proc.devRef .tc main_v74) = Cert.Spec.asRow (F := F) (m ((c : Thread nD τ).loc main_arg10)) := by
  dsimp only [W11, hostOps4]; after_results
  rw [arg10_10 m ρ c]
  exact Cert.Rows.reshape_row _ _

/-- The one host operation before the fifth region leaves the fourth region's output as it was. -/
theorem keep11 (c : Dev nD) : W11 m ρ c (Proc.devRef .tc main_v73) = W10 m ρ c (Proc.devRef .tc main_v73) := by
  dsimp only [W11, hostOps4]; after_results

end Cert.KernelIdeal.Chain

end
-- ==== Proof.Payloads.lean ====
/-
  What each kernel stores at a block, entry by entry. The five calls' bodies are
    call 0:        x · W                      (the first layer's product)
    calls 1 and 2: relu (x + b) · W           (the previous layer's bias and relu, fused with this layer's product)
    call 3:        relu (x + b)               (the third layer's bias and relu)
    call 4:        x · W + b                  (the final linear layer)
  on a block of 10000 rows; read at an entry, each is the matching whole-array function at that row of the block.
-/
import proofs.«100119_j19430432047388_1_alg».proof.Proof.Gen.KernelIdeal.Skeleton
import proofs.«100119_j19430432047388_1_alg».proof.Proof.Rows

noncomputable section

namespace Cert.KernelIdeal.Pay

open Cert.KernelIdeal Cert.KernelIdeal.Gen Idealize.ShloMosaic Cert.Rows

variable (X : FVec Ideal Cert.ReferenceIdeal.S100000x64 .f32) (r : Nat) (hr : r < 10)

/-- Call 0 at a block holding rows of `X`: those rows of `X · W`. -/
theorem pay0 (W : FVec Ideal Cert.ReferenceIdeal.S64x64 .f32) (x0 : Vec Ideal S10000x64 .f32) (h0 : ∀ p, x0 p = X (rowAt r hr p))
    (x2 : Vec Ideal S64x64 .f32) (h2 : ∀ p, x2 p = W p) (j : S10000x64.Idx) :
    k0_pay1 x0 x2 j = Cert.Spec.lin X W (rowAt r hr j) := by
  unfold k0_pay1
  exact matmul_rows X W r hr x0 h0 x2 h2 _ j

/-- Call 1: those rows of `relu (X + b) · W`. -/
theorem pay1 (B : FVec Ideal Cert.ReferenceIdeal.S1x64 .f32) (W : FVec Ideal Cert.ReferenceIdeal.S64x64 .f32) (x0 : Vec Ideal S10000x64 .f32) (h0 : ∀ p, x0 p = X (rowAt r hr p))
    (x2 : Vec Ideal S1x64 .f32) (h2 : ∀ p, x2 p = B p) (x9 : Vec Ideal S64x64 .f32) (h9 : ∀ p, x9 p = W p) (j : S10000x64.Idx) :
    k1_pay1 x0 x2 x9 j = Cert.Spec.lin (Cert.Spec.biasRelu X B) W (rowAt r hr j) := by
  unfold k1_pay1
  exact matmul_rows (Cert.Spec.biasRelu X B) W r hr _ (fun p => biasRelu_rows X B r hr x0 h0 x2 h2 _ _ _ p) x9 h9 _ j

/-- Call 2: the same body as call 1. -/
theorem pay2 (B : FVec Ideal Cert.ReferenceIdeal.S1x64 .f32) (W : FVec Ideal Cert.ReferenceIdeal.S64x64 .f32) (x0 : Vec Ideal S10000x64 .f32) (h0 : ∀ p, x0 p = X (rowAt r hr p))
    (x2 : Vec Ideal S1x64 .f32) (h2 : ∀ p, x2 p = B p) (x9 : Vec Ideal S64x64 .f32) (h9 : ∀ p, x9 p = W p) (j : S10000x64.Idx) :
    k2_pay1 x0 x2 x9 j = Cert.Spec.lin (Cert.Spec.biasRelu X B) W (rowAt r hr j) := by
  unfold k2_pay1
  exact matmul_rows (Cert.Spec.biasRelu X B) W r hr _ (fun p => biasRelu_rows X B r hr x0 h0 x2 h2 _ _ _ p) x9 h9 _ j

/-- Call 3: those rows of `relu (X + b)`. -/
theorem pay3 (B : FVec Ideal Cert.ReferenceIdeal.S1x64 .f32) (x0 : Vec Ideal S10000x64 .f32) (h0 : ∀ p, x0 p = X (rowAt r hr p))
    (x2 : Vec Ideal S1x64 .f32) (h2 : ∀ p, x2 p = B p) (j : S10000x64.Idx) :
    k3_pay1 x0 x2 j = Cert.Spec.biasRelu X B (rowAt r hr j) := by
  unfold k3_pay1
  exact biasRelu_rows X B r hr x0 h0 x2 h2 _ _ _ j

/-- Call 4: those rows of `X · W + b`. -/
theorem pay4 (W : FVec Ideal Cert.ReferenceIdeal.S64x64 .f32) (B : FVec Ideal Cert.ReferenceIdeal.S1x64 .f32) (x0 : Vec Ideal S10000x64 .f32) (h0 : ∀ p, x0 p = X (rowAt r hr p))
    (x3 : Vec Ideal S64x64 .f32) (h3 : ∀ p, x3 p = W p) (x6 : Vec Ideal S1x64 .f32) (h6 : ∀ p, x6 p = B p) (j : S10000x64.Idx) :
    k4_pay1 x0 x3 x6 j = Cert.Spec.linBias X W B (rowAt r hr j) := by
  unfold k4_pay1
  exact linBias_rows X W B r hr _ (fun p => by rw [shapeCast_self]; exact h0 p) x3 h3 x6 h6 _ _ _ j

end Cert.KernelIdeal.Pay

end
-- ==== Proof.RegionValues.lean ====
/-
  Each kernel region's output array, as one function of the arrays the region finds. A region walks its ten row
  blocks; at block t it reads rows 10000·t … of its big operand and the whole of its small ones, and writes the same rows of
  its output. The ten written blocks tile the output array, so after the region the output array IS the whole-array
  function whose rows every block computed — whatever the contents `V` the region was entered with.
-/
import proofs.«100119_j19430432047388_1_alg».proof.Proof.Gen.KernelIdeal.Frame
import proofs.«100119_j19430432047388_1_alg».proof.Proof.Payloads

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat Cfg Window)
open Cert.Rows

-- The contents of the TensorCore's buffers when a region is entered: every statement below is for any such contents.
variable (V : (c : Dev nD) → (b : Ref sig .tc) → Buf (Elt Ideal) ((c : Thread nD τ).loc b))

/-- A block read or written whole starts at offset zero on both axes. -/
theorem hz : (![0, 0] : Fin 2 → Nat) = fun _ => 0 := funext fun a => by fin_cases a <;> rfl

/-! ## Call 0: x · W₀ -/

/-- The printed index maps over the ten grid points: the big operand's and the output's block index is the point's
    number on the row axis and 0 on the feature axis; the weight matrix is one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The big operand's block at point t is rows 10000·t … of its array. -/
theorem read0_0 (c : Dev nD) (t : Fin cfg0.N) (p : S10000x64.Idx) :
    iblk0 V c 0 t p = V c main_arg0 (rowAt t.val (idx0 t).2.2.2.2.2.2 p) := by
  obtain ⟨e0, e1, -, -, -, -, -⟩ := idx0 t
  show V c main_arg0 (((cfg0.win 0).blk t).view.emb p) = _
  refine congrArg (V c main_arg0) (funext fun a => Fin.ext ?_)
  match a with
  | ⟨0, _⟩ => show win0_0.index t (0 : Fin 2) * 10000 + 1 * (p 0).val = t.val * 10000 + (p 0).val; omega
  | ⟨1, _⟩ => show win0_0.index t (1 : Fin 2) * 64 + 1 * (p 1).val = (p 1).val; omega

/-- The weight matrix's one block is the whole matrix. -/
theorem read0_1 (c : Dev nD) (t : Fin cfg0.N) (p : S64x64.Idx) : iblk0 V c 1 t p = V c main_arg3 p := by
  obtain ⟨-, -, e2, e3, -, -, -⟩ := idx0 t
  show V c main_arg3 (((cfg0.win 1).blk t).view.emb p) = _
  refine congrArg (V c main_arg3) (funext fun a => Fin.ext ?_)
  match a with
  | ⟨0, _⟩ => show win0_1.index t (0 : Fin 2) * 64 + 1 * (p 0).val = (p 0).val; omega
  | ⟨1, _⟩ => show win0_1.index t (1 : Fin 2) * 64 + 1 * (p 1).val = (p 1).val; omega

/-- What point t writes back is block t of the whole product. -/
theorem flushed0 (c : Dev nD) (t : Fin cfg0.N) :
    (dat0 V c).flushed 2 t = ((cfg0.win 2).blk t).view.read (Elt Ideal) (Cert.Spec.lin (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨-, -, -, -, e4, e5, ht⟩ := idx0 t
  funext j
  show k0_pay1 (iblk0 V c 0 t) (iblk0 V c 1 t) j
    = Cert.Spec.lin (F := Ideal) (V c main_arg0) (V c main_arg3) (((cfg0.win 2).blk t).view.emb j)
  have hemb : ((cfg0.win 2).blk t).view.emb j = rowAt t.val ht j := funext fun a => Fin.ext (by
    match a with
    | ⟨0, _⟩ => show win0_2.index t (0 : Fin 2) * 10000 + 1 * (j 0).val = t.val * 10000 + (j 0).val; omega
    | ⟨1, _⟩ => show win0_2.index t (1 : Fin 2) * 64 + 1 * (j 1).val = (j 1).val; omega)
  rw [hemb]
  exact Cert.KernelIdeal.Pay.pay0 (V c main_arg0) t.val ht (V c main_arg3) (iblk0 V c 0 t) (read0_0 V c t)
    (iblk0 V c 1 t) (read0_1 V c t) j

/-- An index of the output array is in point t's block iff its row is among the block's 10000 rows. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v31).slice (win0_2.rect t)).set ↔ _
  rw [View.set_slice_whole, Rect.mem_set_unit]
  exact Iff.rfl

/-- Every index of the output array is in the block of the point numbered by its row divided by 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN := N_0
  let t : Fin cfg0.N := ⟨(i 0).val / 10000, by show _ < grid0.N; omega⟩
  have htv : t.val = (i 0).val / 10000 := rfl
  obtain ⟨-, -, -, -, e4, e5, -⟩ := idx0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- After call 0 its output array is the product of its two input arrays. -/
theorem value0 (c : Dev nD) :
    (dat0 V c).arrAt 2 cfg0.N = Cert.Spec.lin (F := Ideal) (V c main_arg0) (V c main_arg3) :=
  (dat0 V c).arrAt_eq_of_cover 2 _ (fun t _ => flushed0 V c t) cover0

/-! ## Call 1: relu (x + b₀) · W₁ -/

/-- The printed index maps over the ten grid points: the big operand's and the output's block index is the point's
    number on the row axis; the bias row and the weight matrix are one block each. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- The big operand's block at point t is rows 10000·t … of its array. -/
theorem read1_0 (c : Dev nD) (t : Fin cfg1.N) (p : S10000x64.Idx) :
    iblk1 V c 0 t p = V c main_v43 (rowAt t.val (idx1 t).2.2.2.2.2.2.2.2 p) := by
  have e := idx1 t
  show V c main_v43 (((cfg1.win 0).blk t).view.emb p) = _
  refine congrArg (V c main_v43) (funext fun a => Fin.ext ?_)
  match a with
  | ⟨0, _⟩ => show win1_0.index t (0 : Fin 2) * 10000 + 1 * (p 0).val = t.val * 10000 + (p 0).val; omega
  | ⟨1, _⟩ => show win1_0.index t (1 : Fin 2) * 64 + 1 * (p 1).val = (p 1).val; omega

/-- The bias row's one block is the whole row. -/
theorem read1_1 (c : Dev nD) (t : Fin cfg1.N) (p : S1x64.Idx) : iblk1 V c 1 t p = V c main_v44 p := by
  have e := idx1 t
  show V c main_v44 (((cfg1.win 1).blk t).view.emb p) = _
  refine congrArg (V c main_v44) (funext fun a => Fin.ext ?_)
  match a with
  | ⟨0, _⟩ => show win1_1.index t (0 : Fin 2) * 1 + 1 * (p 0).val = (p 0).val; omega
  | ⟨1, _⟩ => show win1_1.index t (1 : Fin 2) * 64 + 1 * (p 1).val = (p 1).val; omega

/-- The weight matrix's one block is the whole matrix. -/
theorem read1_2 (c : Dev nD) (t : Fin cfg1.N) (p : S64x64.Idx) : iblk1 V c 2 t p = V c main_arg5 p := by
  have e := idx1 t
  show V c main_arg5 (((cfg1.win 2).blk t).view.emb p) = _
  refine congrArg (V c main_arg5) (funext fun a => Fin.ext ?_)
  match a with
  | ⟨0, _⟩ => show win1_2.index t (0 : Fin 2) * 64 + 1 * (p 0).val = (p 0).val; omega
  | ⟨1, _⟩ => show win1_2.index t (1 : Fin 2) * 64 + 1 * (p 1).val = (p 1).val; omega

/-- What point t writes back is block t of relu (x + b) · W over the whole arrays. -/
theorem flushed1 (c : Dev nD) (t : Fin cfg1.N) :
    (dat1 V c).flushed 3 t = ((cfg1.win 3).blk t).view.read (Elt Ideal)
      (Cert.Spec.lin (F := Ideal) (Cert.Spec.biasRelu (V c main_v43) (V c main_v44)) (V c main_arg5)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  have e := idx1 t
  have ht : t.val < 10 := e.2.2.2.2.2.2.2.2
  funext j
  show k1_pay1 (iblk1 V c 0 t) (iblk1 V c 1 t) (iblk1 V c 2 t) j
    = Cert.Spec.lin (F := Ideal) (Cert.Spec.biasRelu (V c main_v43) (V c main_v44)) (V c main_arg5) (((cfg1.win 3).blk t).view.emb j)
  have hemb : ((cfg1.win 3).blk t).view.emb j = rowAt t.val ht j := funext fun a => Fin.ext (by
    match a with
    | ⟨0, _⟩ => show win1_3.index t (0 : Fin 2) * 10000 + 1 * (j 0).val = t.val * 10000 + (j 0).val; omega
    | ⟨1, _⟩ => show win1_3.index t (1 : Fin 2) * 64 + 1 * (j 1).val = (j 1).val; omega)
  rw [hemb]
  exact Cert.KernelIdeal.Pay.pay1 (V c main_v43) t.val ht (V c main_v44) (V c main_arg5) (iblk1 V c 0 t) (read1_0 V c t)
    (iblk1 V c 1 t) (read1_1 V c t) (iblk1 V c 2 t) (read1_2 V c t) j

/-- An index of the output array is in point t's block iff its row is among the block's 10000 rows. -/
theorem mem_blk1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v45).slice (win1_3.rect t)).set ↔ _
  rw [View.set_slice_whole, Rect.mem_set_unit]
  exact Iff.rfl

/-- Every index of the output array is in the block of the point numbered by its row divided by 10000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN := N_1
  let t : Fin cfg1.N := ⟨(i 0).val / 10000, by show _ < grid1.N; omega⟩
  have htv : t.val = (i 0).val / 10000 := rfl
  have e := idx1 t
  refine ⟨t, flush1_3 t, ?_⟩
  rw [mem_blk1]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 64 ≤ (i 1).val ∧ (i 1).val < win1_3.index t (1 : Fin 2) * 64 + 64
    omega

/-- After call 1 its output array is relu (x + b) · W of its three input arrays. -/
theorem value1 (c : Dev nD) :
    (dat1 V c).arrAt 3 cfg1.N = Cert.Spec.lin (F := Ideal) (Cert.Spec.biasRelu (V c main_v43) (V c main_v44)) (V c main_arg5) :=
  (dat1 V c).arrAt_eq_of_cover 3 _ (fun t _ => flushed1 V c t) cover1

/-! ## Call 2: relu (x + b₁) · W₂ -/

/-- The printed index maps over the ten grid points: the big operand's and the output's block index is the point's
    number on the row axis; the bias row and the weight matrix are one block each. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 10 :=
  (by decide +kernel : ∀ t : Fin grid2.N, _)

/-- The big operand's block at point t is rows 10000·t … of its array. -/
theorem read2_0 (c : Dev nD) (t : Fin cfg2.N) (p : S10000x64.Idx) :
    iblk2 V c 0 t p = V c main_v57 (rowAt t.val (idx2 t).2.2.2.2.2.2.2.2 p) := by
  have e := idx2 t
  show V c main_v57 (((cfg2.win 0).blk t).view.emb p) = _
  refine congrArg (V c main_v57) (funext fun a => Fin.ext ?_)
  match a with
  | ⟨0, _⟩ => show win2_0.index t (0 : Fin 2) * 10000 + 1 * (p 0).val = t.val * 10000 + (p 0).val; omega
  | ⟨1, _⟩ => show win2_0.index t (1 : Fin 2) * 64 + 1 * (p 1).val = (p 1).val; omega

/-- The bias row's one block is the whole row. -/
theorem read2_1 (c : Dev nD) (t : Fin cfg2.N) (p : S1x64.Idx) : iblk2 V c 1 t p = V c main_v58 p := by
  have e := idx2 t
  show V c main_v58 (((cfg2.win 1).blk t).view.emb p) = _
  refine congrArg (V c main_v58) (funext fun a => Fin.ext ?_)
  match a with
  | ⟨0, _⟩ => show win2_1.index t (0 : Fin 2) * 1 + 1 * (p 0).val = (p 0).val; omega
  | ⟨1, _⟩ => show win2_1.index t (1 : Fin 2) * 64 + 1 * (p 1).val = (p 1).val; omega

/-- The weight matrix's one block is the whole matrix. -/
theorem read2_2 (c : Dev nD) (t : Fin cfg2.N) (p : S64x64.Idx) : iblk2 V c 2 t p = V c main_arg7 p := by
  have e := idx2 t
  show V c main_arg7 (((cfg2.win 2).blk t).view.emb p) = _
  refine congrArg (V c main_arg7) (funext fun a => Fin.ext ?_)
  match a with
  | ⟨0, _⟩ => show win2_2.index t (0 : Fin 2) * 64 + 1 * (p 0).val = (p 0).val; omega
  | ⟨1, _⟩ => show win2_2.index t (1 : Fin 2) * 64 + 1 * (p 1).val = (p 1).val; omega

/-- What point t writes back is block t of relu (x + b) · W over the whole arrays. -/
theorem flushed2 (c : Dev nD) (t : Fin cfg2.N) :
    (dat2 V c).flushed 3 t = ((cfg2.win 3).blk t).view.read (Elt Ideal)
      (Cert.Spec.lin (F := Ideal) (Cert.Spec.biasRelu (V c main_v57) (V c main_v58)) (V c main_arg7)) := by
  show (cfg2.win 3).cut (grid2.coords t) ((dat2 V c).after 3 t) = _
  rw [after2_3]
  unfold out2_3
  rw [View.canon_unit_zero hz]
  simp only [View.ld_unit_zero (S := S10000x64) hz, View.ld_unit_zero (S := S1x64) hz, View.ld_unit_zero (S := S64x64) hz]
  have e := idx2 t
  have ht : t.val < 10 := e.2.2.2.2.2.2.2.2
  funext j
  show k2_pay1 (iblk2 V c 0 t) (iblk2 V c 1 t) (iblk2 V c 2 t) j
    = Cert.Spec.lin (F := Ideal) (Cert.Spec.biasRelu (V c main_v57) (V c main_v58)) (V c main_arg7) (((cfg2.win 3).blk t).view.emb j)
  have hemb : ((cfg2.win 3).blk t).view.emb j = rowAt t.val ht j := funext fun a => Fin.ext (by
    match a with
    | ⟨0, _⟩ => show win2_3.index t (0 : Fin 2) * 10000 + 1 * (j 0).val = t.val * 10000 + (j 0).val; omega
    | ⟨1, _⟩ => show win2_3.index t (1 : Fin 2) * 64 + 1 * (j 1).val = (j 1).val; omega)
  rw [hemb]
  exact Cert.KernelIdeal.Pay.pay2 (V c main_v57) t.val ht (V c main_v58) (V c main_arg7) (iblk2 V c 0 t) (read2_0 V c t)
    (iblk2 V c 1 t) (read2_1 V c t) (iblk2 V c 2 t) (read2_2 V c t) j

/-- An index of the output array is in point t's block iff its row is among the block's 10000 rows. -/
theorem mem_blk2 (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v59).slice (win2_3.rect t)).set ↔ _
  rw [View.set_slice_whole, Rect.mem_set_unit]
  exact Iff.rfl

/-- Every index of the output array is in the block of the point numbered by its row divided by 10000. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN := N_2
  let t : Fin cfg2.N := ⟨(i 0).val / 10000, by show _ < grid2.N; omega⟩
  have htv : t.val = (i 0).val / 10000 := rfl
  have e := idx2 t
  refine ⟨t, flush2_3 t, ?_⟩
  rw [mem_blk2]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 64 ≤ (i 1).val ∧ (i 1).val < win2_3.index t (1 : Fin 2) * 64 + 64
    omega

/-- After call 2 its output array is relu (x + b) · W of its three input arrays. -/
theorem value2 (c : Dev nD) :
    (dat2 V c).arrAt 3 cfg2.N = Cert.Spec.lin (F := Ideal) (Cert.Spec.biasRelu (V c main_v57) (V c main_v58)) (V c main_arg7) :=
  (dat2 V c).arrAt_eq_of_cover 3 _ (fun t _ => flushed2 V c t) cover2

/-! ## Call 3: relu (x + b₂) -/

/-- The printed index maps over the ten grid points: the big operand's and the output's block index is the point's
    number on the row axis; the bias row is one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

/-- The big operand's block at point t is rows 10000·t … of its array. -/
theorem read3_0 (c : Dev nD) (t : Fin cfg3.N) (p : S10000x64.Idx) :
    iblk3 V c 0 t p = V c main_v71 (rowAt t.val (idx3 t).2.2.2.2.2.2 p) := by
  have e := idx3 t
  show V c main_v71 (((cfg3.win 0).blk t).view.emb p) = _
  refine congrArg (V c main_v71) (funext fun a => Fin.ext ?_)
  match a with
  | ⟨0, _⟩ => show win3_0.index t (0 : Fin 2) * 10000 + 1 * (p 0).val = t.val * 10000 + (p 0).val; omega
  | ⟨1, _⟩ => show win3_0.index t (1 : Fin 2) * 64 + 1 * (p 1).val = (p 1).val; omega

/-- The bias row's one block is the whole row. -/
theorem read3_1 (c : Dev nD) (t : Fin cfg3.N) (p : S1x64.Idx) : iblk3 V c 1 t p = V c main_v72 p := by
  have e := idx3 t
  show V c main_v72 (((cfg3.win 1).blk t).view.emb p) = _
  refine congrArg (V c main_v72) (funext fun a => Fin.ext ?_)
  match a with
  | ⟨0, _⟩ => show win3_1.index t (0 : Fin 2) * 1 + 1 * (p 0).val = (p 0).val; omega
  | ⟨1, _⟩ => show win3_1.index t (1 : Fin 2) * 64 + 1 * (p 1).val = (p 1).val; omega

/-- What point t writes back is block t of relu (x + b) over the whole arrays. -/
theorem flushed3 (c : Dev nD) (t : Fin cfg3.N) :
    (dat3 V c).flushed 2 t = ((cfg3.win 2).blk t).view.read (Elt Ideal)
      (Cert.Spec.biasRelu (F := Ideal) (V c main_v71) (V c main_v72)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  have e := idx3 t
  have ht : t.val < 10 := e.2.2.2.2.2.2
  funext j
  show k3_pay1 (iblk3 V c 0 t) (iblk3 V c 1 t) j
    = Cert.Spec.biasRelu (F := Ideal) (V c main_v71) (V c main_v72) (((cfg3.win 2).blk t).view.emb j)
  have hemb : ((cfg3.win 2).blk t).view.emb j = rowAt t.val ht j := funext fun a => Fin.ext (by
    match a with
    | ⟨0, _⟩ => show win3_2.index t (0 : Fin 2) * 10000 + 1 * (j 0).val = t.val * 10000 + (j 0).val; omega
    | ⟨1, _⟩ => show win3_2.index t (1 : Fin 2) * 64 + 1 * (j 1).val = (j 1).val; omega)
  rw [hemb]
  exact Cert.KernelIdeal.Pay.pay3 (V c main_v71) t.val ht (V c main_v72) (iblk3 V c 0 t) (read3_0 V c t)
    (iblk3 V c 1 t) (read3_1 V c t) j

/-- An index of the output array is in point t's block iff its row is among the block's 10000 rows. -/
theorem mem_blk3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v73).slice (win3_2.rect t)).set ↔ _
  rw [View.set_slice_whole, Rect.mem_set_unit]
  exact Iff.rfl

/-- Every index of the output array is in the block of the point numbered by its row divided by 10000. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN := N_3
  let t : Fin cfg3.N := ⟨(i 0).val / 10000, by show _ < grid3.N; omega⟩
  have htv : t.val = (i 0).val / 10000 := rfl
  have e := idx3 t
  refine ⟨t, flush3_2 t, ?_⟩
  rw [mem_blk3]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 64 ≤ (i 1).val ∧ (i 1).val < win3_2.index t (1 : Fin 2) * 64 + 64
    omega

/-- After call 3 its output array is relu (x + b) of its two input arrays. -/
theorem value3 (c : Dev nD) :
    (dat3 V c).arrAt 2 cfg3.N = Cert.Spec.biasRelu (F := Ideal) (V c main_v71) (V c main_v72) :=
  (dat3 V c).arrAt_eq_of_cover 2 _ (fun t _ => flushed3 V c t) cover3

/-! ## Call 4: x · W_l + b_l -/

/-- The printed index maps over the ten grid points: the big operand's and the output's block index is the point's
    number on the row axis; the weight matrix and the bias row are one block each. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 ∧ t.val < 10 :=
  (by decide +kernel : ∀ t : Fin grid4.N, _)

/-- The big operand's block at point t is rows 10000·t … of its array. -/
theorem read4_0 (c : Dev nD) (t : Fin cfg4.N) (p : S10000x64.Idx) :
    iblk4 V c 0 t p = V c main_v73 (rowAt t.val (idx4 t).2.2.2.2.2.2.2.2 p) := by
  have e := idx4 t
  show V c main_v73 (((cfg4.win 0).blk t).view.emb p) = _
  refine congrArg (V c main_v73) (funext fun a => Fin.ext ?_)
  match a with
  | ⟨0, _⟩ => show win4_0.index t (0 : Fin 2) * 10000 + 1 * (p 0).val = t.val * 10000 + (p 0).val; omega
  | ⟨1, _⟩ => show win4_0.index t (1 : Fin 2) * 64 + 1 * (p 1).val = (p 1).val; omega

/-- The weight matrix's one block is the whole matrix. -/
theorem read4_1 (c : Dev nD) (t : Fin cfg4.N) (p : S64x64.Idx) : iblk4 V c 1 t p = V c main_arg9 p := by
  have e := idx4 t
  show V c main_arg9 (((cfg4.win 1).blk t).view.emb p) = _
  refine congrArg (V c main_arg9) (funext fun a => Fin.ext ?_)
  match a with
  | ⟨0, _⟩ => show win4_1.index t (0 : Fin 2) * 64 + 1 * (p 0).val = (p 0).val; omega
  | ⟨1, _⟩ => show win4_1.index t (1 : Fin 2) * 64 + 1 * (p 1).val = (p 1).val; omega

/-- The bias row's one block is the whole row. -/
theorem read4_2 (c : Dev nD) (t : Fin cfg4.N) (p : S1x64.Idx) : iblk4 V c 2 t p = V c main_v74 p := by
  have e := idx4 t
  show V c main_v74 (((cfg4.win 2).blk t).view.emb p) = _
  refine congrArg (V c main_v74) (funext fun a => Fin.ext ?_)
  match a with
  | ⟨0, _⟩ => show win4_2.index t (0 : Fin 2) * 1 + 1 * (p 0).val = (p 0).val; omega
  | ⟨1, _⟩ => show win4_2.index t (1 : Fin 2) * 64 + 1 * (p 1).val = (p 1).val; omega

/-- What point t writes back is block t of x · W + b over the whole arrays. -/
theorem flushed4 (c : Dev nD) (t : Fin cfg4.N) :
    (dat4 V c).flushed 3 t = ((cfg4.win 3).blk t).view.read (Elt Ideal)
      (Cert.Spec.linBias (F := Ideal) (V c main_v73) (V c main_arg9) (V c main_v74)) := by
  show (cfg4.win 3).cut (grid4.coords t) ((dat4 V c).after 3 t) = _
  rw [after4_3]
  unfold out4_3
  rw [View.canon_unit_zero hz]
  simp only [View.ld_unit_zero (S := S10000x64) hz, View.ld_unit_zero (S := S64x64) hz, View.ld_unit_zero (S := S1x64) hz]
  have e := idx4 t
  have ht : t.val < 10 := e.2.2.2.2.2.2.2.2
  funext j
  show k4_pay1 (iblk4 V c 0 t) (iblk4 V c 1 t) (iblk4 V c 2 t) j
    = Cert.Spec.linBias (F := Ideal) (V c main_v73) (V c main_arg9) (V c main_v74) (((cfg4.win 3).blk t).view.emb j)
  have hemb : ((cfg4.win 3).blk t).view.emb j = rowAt t.val ht j := funext fun a => Fin.ext (by
    match a with
    | ⟨0, _⟩ => show win4_3.index t (0 : Fin 2) * 10000 + 1 * (j 0).val = t.val * 10000 + (j 0).val; omega
    | ⟨1, _⟩ => show win4_3.index t (1 : Fin 2) * 64 + 1 * (j 1).val = (j 1).val; omega)
  rw [hemb]
  exact Cert.KernelIdeal.Pay.pay4 (V c main_v73) t.val ht (V c main_arg9) (V c main_v74) (iblk4 V c 0 t) (read4_0 V c t)
    (iblk4 V c 1 t) (read4_1 V c t) (iblk4 V c 2 t) (read4_2 V c t) j

/-- An index of the output array is in point t's block iff its row is among the block's 10000 rows. -/
theorem mem_blk4 (t : Fin cfg4.N) (i : S100000x64.Idx) :
    i ∈ ((cfg4.win 3).blk t).view.set ↔ ∀ a : Fin 2, win4_3.index t a * S10000x64.size a ≤ (i a).val
      ∧ (i a).val < win4_3.index t a * S10000x64.size a + S10000x64.size a := by
  show i ∈ ((View.whole main_v75).slice (win4_3.rect t)).set ↔ _
  rw [View.set_slice_whole, Rect.mem_set_unit]
  exact Iff.rfl

/-- Every index of the output array is in the block of the point numbered by its row divided by 10000. -/
theorem cover4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN := N_4
  let t : Fin cfg4.N := ⟨(i 0).val / 10000, by show _ < grid4.N; omega⟩
  have htv : t.val = (i 0).val / 10000 := rfl
  have e := idx4 t
  refine ⟨t, flush4_3 t, ?_⟩
  rw [mem_blk4]
  intro a
  match a with
  | ⟨0, _⟩ =>
    show win4_3.index t (0 : Fin 2) * 10000 ≤ (i 0).val ∧ (i 0).val < win4_3.index t (0 : Fin 2) * 10000 + 10000
    omega
  | ⟨1, _⟩ =>
    show win4_3.index t (1 : Fin 2) * 64 ≤ (i 1).val ∧ (i 1).val < win4_3.index t (1 : Fin 2) * 64 + 64
    omega

/-- After call 4 its output array is x · W + b of its three input arrays. -/
theorem value4 (c : Dev nD) :
    (dat4 V c).arrAt 3 cfg4.N = Cert.Spec.linBias (F := Ideal) (V c main_v73) (V c main_arg9) (V c main_v74) :=
  (dat4 V c).arrAt_eq_of_cover 3 _ (fun t _ => flushed4 V c t) cover4

end Cert.KernelIdeal.Val

end
-- ==== Proof.KernelValue.lean ====
/-
  The idealized kernel program's two results are the network of the specification. Boundary by boundary: the first region
  leaves x · W₀; the host stretch after a region applies the normalised adjacency to what the region left and reshapes
  the next bias into a row; the next region adds that bias, applies relu and multiplies by the next weight matrix — so
  after the fourth region the third layer's activations stand, and the fifth region adds the final linear layer. The
  extended reals enter only inside the regions, where a block's matrix product is the whole product's rows.
-/
import proofs.«100119_j19430432047388_1_alg».proof.Proof.HostChain
import proofs.«100119_j19430432047388_1_alg».proof.Proof.RegionValues
import proofs.«100119_j19430432047388_1_alg».proof.Proof.KernelRun

set_option maxRecDepth 16384

noncomputable section

namespace Cert.KernelIdeal.Net

open Cert.KernelIdeal Cert.KernelIdeal.Gen Cert.KernelIdeal.Chain Cert.KernelIdeal.Val
open Idealize.ShloMosaic Idealize.ShloMosaic.TcCoe Idealize.SL.Sem

variable (m : (ℓ : Loc nD τ sig) → Buf (Elt Ideal) ℓ) (ρ : Dev nD → PrngReg)

/-- The first layer's product x · W₀, the array the first region leaves. -/
def h0 (c : Dev nD) : FVec Ideal Cert.ReferenceIdeal.S100000x64 .f32 :=
  Cert.Spec.lin (F := Ideal) (m ((c : Thread nD τ).loc main_arg0)) (m ((c : Thread nD τ).loc main_arg3))

/-- The second layer's product relu (agg (x · W₀) + b₀) · W₁, the array the second region leaves. -/
def h1 (c : Dev nD) : FVec Ideal Cert.ReferenceIdeal.S100000x64 .f32 :=
  Cert.Spec.lin (F := Ideal) (Cert.Spec.biasRelu (Cert.Spec.agg (edges m c) (h0 m c)) (Cert.Spec.asRow (m ((c : Thread nD τ).loc main_arg4))))
    (m ((c : Thread nD τ).loc main_arg5))

/-- The third layer's product, the array the third region leaves. -/
def h2 (c : Dev nD) : FVec Ideal Cert.ReferenceIdeal.S100000x64 .f32 :=
  Cert.Spec.lin (F := Ideal) (Cert.Spec.biasRelu (Cert.Spec.agg (edges m c) (h1 m c)) (Cert.Spec.asRow (m ((c : Thread nD τ).loc main_arg6))))
    (m ((c : Thread nD τ).loc main_arg7))

/-- After the first region. -/
theorem layer0 (c : Dev nD) : W4 m ρ c (Proc.devRef .tc main_v31) = h0 m c :=
  (W4_arr m ρ c 2).trans ((value0 (V3 m ρ) c).trans (by
    show Cert.Spec.lin (F := Ideal) (W3 m ρ c (Proc.devRef .tc main_arg0)) (W3 m ρ c (Proc.devRef .tc main_arg3)) = _
    rw [arg0_3 m ρ c, arg3_3 m ρ c]
    rfl))

/-- After the second region. -/
theorem layer1 (c : Dev nD) : W6 m ρ c (Proc.devRef .tc main_v45) = h1 m c :=
  (W6_arr m ρ c 3).trans ((value1 (V5 m ρ) c).trans (by
    show Cert.Spec.lin (F := Ideal) (Cert.Spec.biasRelu (W5 m ρ c (Proc.devRef .tc main_v43)) (W5 m ρ c (Proc.devRef .tc main_v44)))
      (W5 m ρ c (Proc.devRef .tc main_arg5)) = _
    rw [agg5 m ρ c, row5 m ρ c, arg5_5 m ρ c, layer0 m ρ c]
    rfl))

/-- After the third region. -/
theorem layer2 (c : Dev nD) : W8 m ρ c (Proc.devRef .tc main_v59) = h2 m c :=
  (W8_arr m ρ c 3).trans ((value2 (V7 m ρ) c).trans (by
    show Cert.Spec.lin (F := Ideal) (Cert.Spec.biasRelu (W7 m ρ c (Proc.devRef .tc main_v57)) (W7 m ρ c (Proc.devRef .tc main_v58)))
      (W7 m ρ c (Proc.devRef .tc main_arg7)) = _
    rw [agg7 m ρ c, row7 m ρ c, arg7_7 m ρ c, layer1 m ρ c]
    rfl))

/-- The network's first result in terms of the launch memory. -/
abbrev hidden (c : Dev nD) : FVec Ideal Cert.ReferenceIdeal.S100000x64 .f32 :=
  Cert.Spec.hidden (F := Ideal) (m ((c : Thread nD τ).loc main_arg0)) (edges m c)
    (m ((c : Thread nD τ).loc main_arg3)) (m ((c : Thread nD τ).loc main_arg4))
    (m ((c : Thread nD τ).loc main_arg5)) (m ((c : Thread nD τ).loc main_arg6))
    (m ((c : Thread nD τ).loc main_arg7)) (m ((c : Thread nD τ).loc main_arg8))

/-- The network's second result in terms of the launch memory. -/
abbrev final (c : Dev nD) : FVec Ideal Cert.ReferenceIdeal.S100000x64 .f32 :=
  Cert.Spec.final (F := Ideal) (m ((c : Thread nD τ).loc main_arg0)) (edges m c)
    (m ((c : Thread nD τ).loc main_arg3)) (m ((c : Thread nD τ).loc main_arg4))
    (m ((c : Thread nD τ).loc main_arg5)) (m ((c : Thread nD τ).loc main_arg6))
    (m ((c : Thread nD τ).loc main_arg7)) (m ((c : Thread nD τ).loc main_arg8))
    (m ((c : Thread nD τ).loc main_arg9)) (m ((c : Thread nD τ).loc main_arg10))

/-- After the fourth region: the third layer's activations. -/
theorem hidden10 (c : Dev nD) : W10 m ρ c (Proc.devRef .tc main_v73) = hidden m c :=
  (W10_arr m ρ c 2).trans ((value3 (V9 m ρ) c).trans (by
    show Cert.Spec.biasRelu (F := Ideal) (W9 m ρ c (Proc.devRef .tc main_v71)) (W9 m ρ c (Proc.devRef .tc main_v72)) = _
    rw [agg9 m ρ c, row9 m ρ c, layer2 m ρ c]
    rfl))

/-- The fifth region only reads that array, so it is still there at the end. -/
theorem hidden12 (c : Dev nD) : W12 m ρ c (Proc.devRef .tc main_v73) = hidden m c :=
  ((W12_arr m ρ c 0).trans (((dat4 (V11 m ρ) c).arrAt_in 0 rfl _).trans (A_eq4 (V11 m ρ) c 0))).trans
    ((keep11 m ρ c).trans (hidden10 m ρ c))

/-- After the fifth region: the final linear layer. -/
theorem final12 (c : Dev nD) : W12 m ρ c (Proc.devRef .tc main_v75) = final m c :=
  (W12_arr m ρ c 3).trans ((value4 (V11 m ρ) c).trans (by
    show Cert.Spec.linBias (F := Ideal) (W11 m ρ c (Proc.devRef .tc main_v73)) (W11 m ρ c (Proc.devRef .tc main_arg9))
      (W11 m ρ c (Proc.devRef .tc main_v74)) = _
    rw [keep11 m ρ c, hidden10 m ρ c, arg9_11 m ρ c, row11 m ρ c]
    rfl))

/-- The idealized kernel program's run: every weakly fair execution terminates, nothing faulting, with the two results
    at the network's two functions of the arguments and the arguments unchanged. -/
theorem run : θ_run defs (onTc (τ := τ) (main (F := Ideal))) ⟨m, fun _ => 0, ρ⟩ (fun r => ∀ c : Dev nD,
      r.2.mem ((c.tc : Thread nD τ).loc main_v73) = hidden m c
      ∧ r.2.mem ((c.tc : Thread nD τ).loc main_v75) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (hidden12 m ρ c), (h c).2.1.trans (final12 m ρ c), (h c).2.2⟩)
    (Cert.KernelIdeal.Named.run_named m ρ)

end Cert.KernelIdeal.Net

end
-- ==== Proof.RefValue.lean ====
/-
  The reference program's two results are the network of the specification: its run ends with each result array at the
  composed term of its 115 host operations, and that term is, piece for piece, three layers
  relu (agg (h · W) + b) and the final linear map — the same degree, scale and index columns at every layer.
  Stated for any float family: nothing here depends on what the operations compute.
-/
import proofs.«100119_j19430432047388_1_alg».proof.Proof.RefRun
import proofs.«100119_j19430432047388_1_alg».proof.Proof.Spec

noncomputable section

namespace Cert.ReferenceIdeal.RefValue

open Cert.ReferenceIdeal Cert.ReferenceIdeal.RunP Idealize.ShloMosaic Idealize.SL.Sem

variable {F : FTy → Type} [FloatOps F]

set_option maxRecDepth 8192 in
/-- The first result: the third layer's activations. -/
theorem hidden_eq (m : (ℓ : Loc nD τ sig) → Buf (Elt F) ℓ) (c : Dev nD) :
    res_main_v85 m c = Cert.Spec.hidden (m ((c.tc : Thread nD τ).loc main_arg0)) (m ((c.tc : Thread nD τ).loc main_arg1))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8)) := by
  unfold res_main_v85
  rfl

set_option maxRecDepth 8192 in
/-- The second result: the final linear layer of those activations. -/
theorem final_eq (m : (ℓ : Loc nD τ sig) → Buf (Elt F) ℓ) (c : Dev nD) :
    res_main_v89 m c = Cert.Spec.final (m ((c.tc : Thread nD τ).loc main_arg0)) (m ((c.tc : Thread nD τ).loc main_arg1))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8))
      (m ((c.tc : Thread nD τ).loc main_arg9)) (m ((c.tc : Thread nD τ).loc main_arg10)) := by
  unfold res_main_v89
  rfl

end Cert.ReferenceIdeal.RefValue

end
-- ==== Proof.lean ====
/-
  A three-layer graph convolutional network on 100000 nodes with 64 features and 800000 edges, and one final linear layer:

      layer h W b = relu (agg (h · W) + b),    agg = the symmetric-normalised adjacency with self loops,
      out = layer (layer (layer x W₀ b₀) W₁ b₁) W₂ b₂,        result = out · W_l + b_l.

  The kernel's program does the irregular part — degrees, the per-message scale, gather, scatter-add — by host operations,
  exactly as the reference does, and the dense part in five kernel calls over blocks of 10000 rows: x · W₀; twice
  relu (agg + b) · W (a layer's bias and relu fused with the next layer's product); relu (agg + b₂); out · W_l + b_l. The
  reference does every product as one host matrix product and every bias and relu as host operations.

  On the extended reals the two agree entry by entry. The feature axis, over which the products sum, is never cut, so a
  block of a product is the rows of the whole product with the same 64 summands; rounding an operand to bf16 is the
  identity; bias and relu act entry by entry. The adjacency is the same function of the edge table on both sides and is
  never opened. No law of arithmetic beyond that is used, so the inputs' finiteness is not needed.

  Each program's frame — every weakly fair execution terminates, nothing faults, the arguments end unchanged — is the
  generated frame for the two kernel programs and the reference's run with its results dropped. The kernel's ideal pass
  rewrote nothing, so there is nothing to preserve.
-/
import proofs.«100119_j19430432047388_1_alg».proof.Defs
import proofs.«100119_j19430432047388_1_alg».proof.Proof.Gen.Kernel
import proofs.«100119_j19430432047388_1_alg».proof.Proof.Gen.Kernel.Frame
import proofs.«100119_j19430432047388_1_alg».proof.Proof.Gen.KernelIdeal
import proofs.«100119_j19430432047388_1_alg».proof.Proof.Gen.KernelIdeal.Frame
import proofs.«100119_j19430432047388_1_alg».proof.Proof.Gen.ReferenceIdeal
import proofs.«100119_j19430432047388_1_alg».proof.Proof.Gen.Pre_finite_inputs
import proofs.«100119_j19430432047388_1_alg».proof.Proof.KernelValue
import proofs.«100119_j19430432047388_1_alg».proof.Proof.RefValue

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run, the two results dropped. -/
theorem frame_ri : Cert.frame_ReferenceIdeal := fun m ρ _ =>
  (θ_run Cert.ReferenceIdeal.defs _ _).mono (fun _ h c => (h c).2.2) (Cert.ReferenceIdeal.RunP.run (F := Ideal) m ρ)

/-- From memories agreeing on the arguments both idealized programs end with the network's two results. -/
theorem algebraic : Cert.algebraic_KernelIdeal_ReferenceIdeal := by
  intro m ρ m' ρ' _ hagree
  refine ⟨fun c => Cert.KernelIdeal.Net.hidden m c, fun c => Cert.KernelIdeal.Net.final m c, Cert.KernelIdeal.Net.run m ρ, ?_⟩
  refine (θ_run Cert.ReferenceIdeal.defs _ _).mono (fun _ h c => ?_) (Cert.ReferenceIdeal.RunP.run (F := Ideal) m' ρ')
  obtain ⟨e0, e1, e2, e3, e4, e5, e6, e7, e8, e9, e10⟩ := hagree c
  refine ⟨(h c).1.trans ?_, (h c).2.1.trans ?_, (h c).2.2⟩
  · rw [Cert.ReferenceIdeal.RefValue.hidden_eq m' c, e0, e1, e3, e4, e5, e6, e7, e8]
  · rw [Cert.ReferenceIdeal.RefValue.final_eq m' c, e0, e1, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
